-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S56x2048 : Shape := ⟨2, ![56, 2048]⟩
abbrev S2048x56 : Shape := ⟨2, ![2048, 56]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_
  bcast_S_S56x2048 : S_.BroadcastsInDim S56x2048 (![] : Fin 0 → Fin S56x2048.rank)
  reducesTo_S56x2048_S_d0_1 : S56x2048.ReducesTo [0, 1] S_
  bcast_S_S2048x56 : S_.BroadcastsInDim S2048x56 (![] : Fin 0 → Fin S2048x56.rank)
  reducesTo_S2048x56_S_d0_1 : S2048x56.ReducesTo [0, 1] S_

variable [Facts]

def fn_part1 {F : FTy → Type} [FloatOps F] (main_arg4 : FVec F S4096x8 .f32) (main_arg5 : FVec F S56x2048 .f32) (main_arg6 : FVec F S2048x56 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  let main_v24 : FVec F S56x2048 .f32 := Host.absf main_arg5
  let main_cst_8 : FVec F S_ .f32 := constant S_ .f32 0x7F800000#32
  let main_v25 : FVec F S56x2048 .f32 := broadcastInDim S56x2048 ![] bcast_S_S56x2048 main_cst_8
  let main_v26 : IVec S56x2048 1 := cmpf .olt main_v24 main_v25
  let main_c_9 : IVec S_ 1 := constantI S_ 1 1#1
  let main_v27 : IVec S_ 1 := (fun x v => Host.reduce IntOp.andi x v reducesTo_S56x2048_S_d0_1 h_S_) main_v26 main_c_9
  let main_v28 : IVec S_ 1 := andi main_v23 main_v27
  let main_v29 : FVec F S2048x56 .f32 := Host.absf main_arg6
  let main_cst_10 : FVec F S_ .f32 := constant S_ .f32 0x7F800000#32
  let main_v30 : FVec F S2048x56 .f32 := broadcastInDim S2048x56 ![] bcast_S_S2048x56 main_cst_10
  let main_v31 : IVec S2048x56 1 := cmpf .olt main_v29 main_v30
  let main_c_11 : IVec S_ 1 := constantI S_ 1 1#1
  let main_v32 : IVec S_ 1 := (fun x v => Host.reduce IntOp.andi x v reducesTo_S2048x56_S_d0_1 h_S_) main_v31 main_c_11
  let main_v33 : IVec S_ 1 := andi main_v28 main_v32
  main_v33

def fn {F : FTy → Type} [FloatOps F] (main_arg0 : FVec F S4x2048x4096 .f32) (main_arg1 : FVec F S4096x4096 .f32) (main_arg2 : FVec F S4096 .f32) (main_arg3 : FVec F S8x4096 .f32) (main_arg4 : FVec F S4096x8 .f32) (main_arg5 : FVec F S56x2048 .f32) (main_arg6 : FVec F S2048x56 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_arg5 main_arg6 main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S56x2048 : Shape := ⟨2, ![56, 2048]⟩
abbrev S2048x56 : Shape := ⟨2, ![2048, 56]⟩
abbrev S0x2048 : Shape := ⟨2, ![0, 2048]⟩
abbrev S1x2048 : Shape := ⟨2, ![1, 2048]⟩
abbrev S55x2048 : Shape := ⟨2, ![55, 2048]⟩
abbrev S56x4096 : Shape := ⟨2, ![56, 4096]⟩
abbrev S2048x0 : Shape := ⟨2, ![2048, 0]⟩
abbrev S2048x1 : Shape := ⟨2, ![2048, 1]⟩
abbrev S2048x55 : Shape := ⟨2, ![2048, 55]⟩
abbrev S4096x56 : Shape := ⟨2, ![4096, 56]⟩
abbrev S8192x4096 : Shape := ⟨2, ![8192, 4096]⟩
abbrev S1x4096 : Shape := ⟨2, ![1, 4096]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 32
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8x4096, .f32⟩
  | .hbm, ⟨4, _⟩ => ⟨S4096x8, .f32⟩
  | .hbm, ⟨5, _⟩ => ⟨S56x2048, .f32⟩
  | .hbm, ⟨6, _⟩ => ⟨S2048x56, .f32⟩
  | .hbm, ⟨7, _⟩ => ⟨S56x2048, .f32⟩
  | .hbm, ⟨8, _⟩ => ⟨S0x2048, .f32⟩
  | .hbm, ⟨9, _⟩ => ⟨S56x2048, .f32⟩
  | .hbm, ⟨10, _⟩ => ⟨S1x2048, .f32⟩
  | .hbm, ⟨11, _⟩ => ⟨S55x2048, .f32⟩
  | .hbm, ⟨12, _⟩ => ⟨S56x2048, .f32⟩
  | .hbm, ⟨13, _⟩ => ⟨S56x4096, .f32⟩
  | .hbm, ⟨14, _⟩ => ⟨S2048x56, .f32⟩
  | .hbm, ⟨15, _⟩ => ⟨S2048x0, .f32⟩
  | .hbm, ⟨16, _⟩ => ⟨S2048x56, .f32⟩
  | .hbm, ⟨17, _⟩ => ⟨S2048x1, .f32⟩
  | .hbm, ⟨18, _⟩ => ⟨S2048x55, .f32⟩
  | .hbm, ⟨19, _⟩ => ⟨S2048x56, .f32⟩
  | .hbm, ⟨20, _⟩ => ⟨S4096x56, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S8192x4096, .f32⟩
  | .hbm, ⟨27, _⟩ => ⟨S8192x4096, .bf16⟩
  | .hbm, ⟨28, _⟩ => ⟨S4096x4096, .bf16⟩
  | .hbm, ⟨29, _⟩ => ⟨S1x4096, .f32⟩
  | .hbm, ⟨30, _⟩ => ⟨S8192x4096, .f32⟩
  | .hbm, ⟨31, _⟩ => ⟨S4x2048x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev main_call1_v0 : Ref sig .tc := ⟨.hbm, 10, rfl⟩
abbrev main_call1_v1 : Ref sig .tc := ⟨.hbm, 11, rfl⟩
abbrev main_v1 : Ref sig .tc := ⟨.hbm, 12, rfl⟩
abbrev main_v2 : Ref sig .tc := ⟨.hbm, 13, rfl⟩
abbrev main_call2_v0 : Ref sig .tc := ⟨.hbm, 14, rfl⟩
abbrev main_call2_v1 : Ref sig .tc := ⟨.hbm, 15, rfl⟩
abbrev main_v3 : Ref sig .tc := ⟨.hbm, 16, rfl⟩
abbrev main_call3_v0 : Ref sig .tc := ⟨.hbm, 17, rfl⟩
abbrev main_call3_v1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S56x2048_S56x2048_0_0 : S56x2048.Slices ![0, 0] S56x2048
  slices_S56x2048_S0x2048_0_0 : S56x2048.Slices ![0, 0] S0x2048
  concatenates_S56x2048_S0x2048_S56x2048_d0 : Shape.Concatenates [S56x2048, S0x2048] S56x2048 0
  slices_S56x2048_S1x2048_55_0 : S56x2048.Slices ![55, 0] S1x2048
  slices_S56x2048_S55x2048_0_0 : S56x2048.Slices ![0, 0] S55x2048
  concatenates_S1x2048_S55x2048_S56x2048_d0 : Shape.Concatenates [S1x2048, S55x2048] S56x2048 0
  concatenates_S56x2048_S56x2048_S56x4096_d1 : Shape.Concatenates [S56x2048, S56x2048] S56x4096 1
  slices_S2048x56_S2048x56_0_0 : S2048x56.Slices ![0, 0] S2048x56
  slices_S2048x56_S2048x0_0_0 : S2048x56.Slices ![0, 0] S2048x0
  concatenates_S2048x56_S2048x0_S2048x56_d1 : Shape.Concatenates [S2048x56, S2048x0] S2048x56 1
  slices_S2048x56_S2048x1_0_55 : S2048x56.Slices ![0, 55] S2048x1
  slices_S2048x56_S2048x55_0_0 : S2048x56.Slices ![0, 0] S2048x55
  concatenates_S2048x1_S2048x55_S2048x56_d1 : Shape.Concatenates [S2048x1, S2048x55] S2048x56 1
  concatenates_S2048x56_S2048x56_S4096x56_d0 : Shape.Concatenates [S2048x56, S2048x56] S4096x56 0
  transposes_S4096x4096_S4096x4096_1_0 : S4096x4096.Transposes [1, 0] S4096x4096
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  dot_S4096x8_S8x4096_S4096x4096_1_0_0_1_n_n_wf : DotDims.WF S4096x8 S8x4096 S4096x4096 [1] [0] [0] [1] [] []
  dot_S4096x56_S56x4096_S4096x4096_1_0_0_1_n_n_wf : DotDims.WF S4096x56 S56x4096 S4096x4096 [1] [0] [0] [1] [] []
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .bf16 = 32 ∨ (Rect.block (s := S8192x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .bf16 = 32 ∨ (Rect.block (s := S4096x4096) S4096x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x4096.size a
  hwx0_3 : ∀ i : grid0.Coords, EltTy.bits .f32 = 32 ∨ (Rect.block (s := S8192x4096) S1024x512.size (cc0_transform_3 i) (hinb0_3 i)).WholeWords (EltTy.packing .f32)

variable [Facts₀]

def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S4096x56_S56x4096_S4096x4096_1_0_0_1_n_n : DotDims S4096x56 S56x4096 S4096x4096 where
  lhsContracting := [1]
  rhsContracting := [0]
  lhsNonContracting := [0]
  rhsNonContracting := [1]
  lhsBatch := []
  rhsBatch := []
  wf := dot_S4096x56_S56x4096_S4096x4096_1_0_0_1_n_n_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_v12) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S8x4096 : Shape := ⟨2, ![8, 4096]⟩
abbrev S4096x8 : Shape := ⟨2, ![4096, 8]⟩
abbrev S56x2048 : Shape := ⟨2, ![56, 2048]⟩
abbrev S2048x56 : Shape := ⟨2, ![2048, 56]⟩
abbrev S0x2048 : Shape := ⟨2, ![0, 2048]⟩
abbrev S1x2048 : Shape := ⟨2, ![1, 2048]⟩
abbrev S55x2048 : Shape := ⟨2, ![55, 2048]⟩
abbrev S56x4096 : Shape := ⟨2, ![56, 4096]⟩
abbrev S2048x0 : Shape := ⟨2, ![2048, 0]⟩
abbrev S2048x1 : Shape := ⟨2, ![2048, 1]⟩
abbrev S2048x55 : Shape := ⟨2, ![2048, 55]⟩
abbrev S4096x56 : Shape := ⟨2, ![4096, 56]⟩
abbrev S1x1x4096 : Shape := ⟨3, ![1, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S8x4096, .f32⟩
  | .hbm, ⟨4, _⟩ => ⟨S4096x8, .f32⟩
  | .hbm, ⟨5, _⟩ => ⟨S56x2048, .f32⟩
  | .hbm, ⟨6, _⟩ => ⟨S2048x56, .f32⟩
  | .hbm, ⟨7, _⟩ => ⟨S56x2048, .f32⟩
  | .hbm, ⟨8, _⟩ => ⟨S0x2048, .f32⟩
  | .hbm, ⟨9, _⟩ => ⟨S56x2048, .f32⟩
  | .hbm, ⟨10, _⟩ => ⟨S1x2048, .f32⟩
  | .hbm, ⟨11, _⟩ => ⟨S55x2048, .f32⟩
  | .hbm, ⟨12, _⟩ => ⟨S56x2048, .f32⟩
  | .hbm, ⟨13, _⟩ => ⟨S56x4096, .f32⟩
  | .hbm, ⟨14, _⟩ => ⟨S2048x56, .f32⟩
  | .hbm, ⟨15, _⟩ => ⟨S2048x0, .f32⟩
  | .hbm, ⟨16, _⟩ => ⟨S2048x56, .f32⟩
  | .hbm, ⟨17, _⟩ => ⟨S2048x1, .f32⟩
  | .hbm, ⟨18, _⟩ => ⟨S2048x55, .f32⟩
  | .hbm, ⟨19, _⟩ => ⟨S2048x56, .f32⟩
  | .hbm, ⟨20, _⟩ => ⟨S4096x56, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4x2048x4096, .f32⟩
  | .hbm, ⟨25, _⟩ => ⟨S1x1x4096, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev main_call1_v0 : Ref sig .tc := ⟨.hbm, 10, rfl⟩
abbrev main_call1_v1 : Ref sig .tc := ⟨.hbm, 11, rfl⟩
abbrev main_v1 : Ref sig .tc := ⟨.hbm, 12, rfl⟩
abbrev main_v2 : Ref sig .tc := ⟨.hbm, 13, rfl⟩
abbrev main_call2_v0 : Ref sig .tc := ⟨.hbm, 14, rfl⟩
abbrev main_call2_v1 : Ref sig .tc := ⟨.hbm, 15, rfl⟩
abbrev main_v3 : Ref sig .tc := ⟨.hbm, 16, rfl⟩
abbrev main_call3_v0 : Ref sig .tc := ⟨.hbm, 17, rfl⟩
abbrev main_call3_v1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩

abbrev nD : Nat := 1
abbrev τ : Topo := Topo.v7x

variable {F : FTy → Type} [FloatOps F]

class Facts₀ : Prop where
  slices_S56x2048_S56x2048_0_0 : S56x2048.Slices ![0, 0] S56x2048
  slices_S56x2048_S0x2048_0_0 : S56x2048.Slices ![0, 0] S0x2048
  concatenates_S56x2048_S0x2048_S56x2048_d0 : Shape.Concatenates [S56x2048, S0x2048] S56x2048 0
  slices_S56x2048_S1x2048_55_0 : S56x2048.Slices ![55, 0] S1x2048
  slices_S56x2048_S55x2048_0_0 : S56x2048.Slices ![0, 0] S55x2048
  concatenates_S1x2048_S55x2048_S56x2048_d0 : Shape.Concatenates [S1x2048, S55x2048] S56x2048 0
  concatenates_S56x2048_S56x2048_S56x4096_d1 : Shape.Concatenates [S56x2048, S56x2048] S56x4096 1
  slices_S2048x56_S2048x56_0_0 : S2048x56.Slices ![0, 0] S2048x56
  slices_S2048x56_S2048x0_0_0 : S2048x56.Slices ![0, 0] S2048x0
  concatenates_S2048x56_S2048x0_S2048x56_d1 : Shape.Concatenates [S2048x56, S2048x0] S2048x56 1
  slices_S2048x56_S2048x1_0_55 : S2048x56.Slices ![0, 55] S2048x1
  slices_S2048x56_S2048x55_0_0 : S2048x56.Slices ![0, 0] S2048x55
  concatenates_S2048x1_S2048x55_S2048x56_d1 : Shape.Concatenates [S2048x1, S2048x55] S2048x56 1
  concatenates_S2048x56_S2048x56_S4096x56_d0 : Shape.Concatenates [S2048x56, S2048x56] S4096x56 0
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4096x8_S8x4096_S4096x4096_1_0_0_1_n_n_wf : DotDims.WF S4096x8 S8x4096 S4096x4096 [1] [0] [0] [1] [] []
  dot_S4096x56_S56x4096_S4096x4096_1_0_0_1_n_n_wf : DotDims.WF S4096x56 S56x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf
def dot_S4096x56_S56x4096_S4096x4096_1_0_0_1_n_n : DotDims S4096x56 S56x4096 S4096x4096 where
  lhsContracting := [1]
  rhsContracting := [0]
  lhsNonContracting := [0]
  rhsNonContracting := [1]
  lhsBatch := []
  rhsBatch := []
  wf := dot_S4096x56_S56x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.SplitLaw.lean ====
/-
  The one algebraic law of this certificate, on the extended reals.

  The kernel adds the low-rank correction to the weight before the big product,
      out = Σ_k x_k · (w_k + d_k) + b,
  while the reference multiplies twice and adds afterwards,
      out = (Σ_k x_k · w_k + b) + Σ_k x_k · d_k.
  Over the extended reals  x · (w + d) = x · w + x · d  can fail at infinities, but it holds whenever
  x and w are real numbers, whatever d is: if d is infinite then w + d = d and the real x · w is absorbed
  by x · d (or both sides vanish when x = 0). The rest is commutativity and associativity of +, which hold
  everywhere. So only the activations x and the base weight w have to be finite.
-/
import Mathlib.Data.EReal.Operations
import Mathlib.Algebra.BigOperators.Group.Finset.Basic

namespace Cert.LoraFold

open scoped BigOperators

/-- For real `x`, `w` and any extended real `d`: `x · (w + d) = x · w + x · d`. -/
theorem coe_mul_coe_add (x w : ℝ) (d : EReal) :
    (x : EReal) * ((w : EReal) + d) = (x : EReal) * (w : EReal) + (x : EReal) * d := by
  induction d using EReal.rec with
  | bot =>
    rw [EReal.add_bot]
    rcases lt_trichotomy x 0 with hx | hx | hx
    · rw [EReal.coe_mul_bot_of_neg hx, ← EReal.coe_mul, EReal.coe_add_top]
    · subst hx; simp
    · rw [EReal.coe_mul_bot_of_pos hx, EReal.add_bot]
  | coe r =>
    rw [← EReal.coe_add, ← EReal.coe_mul, ← EReal.coe_mul, ← EReal.coe_mul, ← EReal.coe_add, mul_add]
  | top =>
    rw [EReal.coe_add_top]
    rcases lt_trichotomy x 0 with hx | hx | hx
    · rw [EReal.coe_mul_top_of_neg hx, EReal.add_bot]
    · subst hx; simp
    · rw [EReal.coe_mul_top_of_pos hx, ← EReal.coe_mul, EReal.coe_add_top]

/-- The same for extended reals known to be neither infinity. -/
theorem mul_add_of_finite {x w : EReal} (hx : x ≠ ⊥ ∧ x ≠ ⊤) (hw : w ≠ ⊥ ∧ w ≠ ⊤) (d : EReal) :
    x * (w + d) = x * w + x * d := by
  lift x to ℝ using ⟨hx.2, hx.1⟩
  lift w to ℝ using ⟨hw.2, hw.1⟩
  exact coe_mul_coe_add x w d

/-- The folded product against the split one: `Σ x·(w + d) + b = (Σ x·w + b) + Σ x·d` when every `x k`
    and every `w k` is finite. -/
theorem sum_fold_eq_split {ι : Type} [Fintype ι] (x w d : ι → EReal) (b : EReal)
    (hx : ∀ k, x k ≠ ⊥ ∧ x k ≠ ⊤) (hw : ∀ k, w k ≠ ⊥ ∧ w k ≠ ⊤) :
    (∑ k, x k * (w k + d k)) + b = ((∑ k, x k * w k) + b) + ∑ k, x k * d k := by
  have h : ∀ k, x k * (w k + d k) = x k * w k + x k * d k := fun k => mul_add_of_finite (hx k) (hw k) (d k)
  simp only [h]
  rw [Finset.sum_add_distrib, add_right_comm]

end Cert.LoraFold
-- ==== Proof.BlockEntry.lean ====
/-
  One entry of the block the kernel body writes at a grid point.

  The body loads a 1024×4096 block of activations, a 4096×512 block of (transposed, folded) weights and a
  1×512 strip of the bias, multiplies the first two into a zero accumulator and adds the strip to every row.
  At the ideal instance the product is the plain sum over the 4096 contracted positions, so entry (r, q) of
  the written block is   Σ_k X(r, k) · Y(k, q) + β(0, q).
-/
import proofs.«136540_j52836687675856_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockEntry

open Cert.KernelIdeal Cert.KernelIdeal.Gen Idealize.ShloMosaic Idealize.ShloMosaic.TcCoe

/-- The operand coordinates of the block product: output entry `i` and contracted position `k` meet the left
    block at (row of `i`, `k`) and the right block at (`k`, column of `i`). -/
theorem lhs_mm_0 (i : S1024x512.Idx) (q : dot_S1024x4096_S4096x512_S1024x512_1_0_0_1_n_n.contr.Idx) :
    (dot_S1024x4096_S4096x512_S1024x512_1_0_0_1_n_n.lhsIdx i q 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl
theorem lhs_mm_1 (i : S1024x512.Idx) (q : dot_S1024x4096_S4096x512_S1024x512_1_0_0_1_n_n.contr.Idx) :
    (dot_S1024x4096_S4096x512_S1024x512_1_0_0_1_n_n.lhsIdx i q 1).val = (q ⟨0, by decide⟩).val :=
  dot_S1024x4096_S4096x512_S1024x512_1_0_0_1_n_n.lhsIdx_val_of_single rfl i q
theorem rhs_mm_0 (i : S1024x512.Idx) (q : dot_S1024x4096_S4096x512_S1024x512_1_0_0_1_n_n.contr.Idx) :
    (dot_S1024x4096_S4096x512_S1024x512_1_0_0_1_n_n.rhsIdx i q 0).val = (q ⟨0, by decide⟩).val :=
  dot_S1024x4096_S4096x512_S1024x512_1_0_0_1_n_n.rhsIdx_val_of_single rfl i q
theorem rhs_mm_1 (i : S1024x512.Idx) (q : dot_S1024x4096_S4096x512_S1024x512_1_0_0_1_n_n.contr.Idx) :
    (dot_S1024x4096_S4096x512_S1024x512_1_0_0_1_n_n.rhsIdx i q 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

/-- (row of `i`, `k`) in the activation block. -/
abbrev actAt (i : S1024x512.Idx) (k : Fin 4096) : S1024x4096.Idx := fun a => match a with
  | ⟨0, _⟩ => ⟨(i 0).val, (i 0).isLt⟩
  | ⟨1, _⟩ => ⟨k.val, k.isLt⟩
/-- (`k`, column of `i`) in the weight block. -/
abbrev wgtAt (i : S1024x512.Idx) (k : Fin 4096) : S4096x512.Idx := fun a => match a with
  | ⟨0, _⟩ => ⟨k.val, k.isLt⟩
  | ⟨1, _⟩ => ⟨(i 1).val, (i 1).isLt⟩
/-- (0, column of `i`) in the bias strip. -/
abbrev biasAt (i : S1024x512.Idx) : S1x512.Idx := fun a => match a with
  | ⟨0, _⟩ => ⟨0, Nat.one_pos⟩
  | ⟨1, _⟩ => ⟨(i 1).val, (i 1).isLt⟩

/-- The block product into the zero accumulator, at an entry: the sum over the contracted positions. -/
theorem blockProduct_apply (x0 : FVec Ideal S1024x4096 .bf16) (x1 : FVec Ideal S4096x512 .bf16) (i : S1024x512.Idx) :
    matmul dot_S1024x4096_S4096x512_S1024x512_1_0_0_1_n_n none x0 x1 (constant S1024x512 .f32 0x00000000#32) i
      = ∑ k : Fin 4096, x0 (actAt i k) * x1 (wgtAt i k) := by
  simp only [matmul]
  rw [Ideal.matmul_constant_zero_apply, ← Equiv.sum_comp (ValueIdx.contrEquiv1 dot_S1024x4096_S4096x512_S1024x512_1_0_0_1_n_n 4096 rfl rfl).symm]
  refine Finset.sum_congr rfl fun k _ => ?_
  have hk := ValueIdx.contrEquiv1_symm_val dot_S1024x4096_S4096x512_S1024x512_1_0_0_1_n_n 4096 rfl rfl k
  have el : dot_S1024x4096_S4096x512_S1024x512_1_0_0_1_n_n.lhsIdx i ((ValueIdx.contrEquiv1 dot_S1024x4096_S4096x512_S1024x512_1_0_0_1_n_n 4096 rfl rfl).symm k) = actAt i k := funext fun a => Fin.ext (by
    match a with
    | ⟨0, _⟩ => exact lhs_mm_0 _ _
    | ⟨1, _⟩ => exact (lhs_mm_1 _ _).trans hk)
  have er : dot_S1024x4096_S4096x512_S1024x512_1_0_0_1_n_n.rhsIdx i ((ValueIdx.contrEquiv1 dot_S1024x4096_S4096x512_S1024x512_1_0_0_1_n_n 4096 rfl rfl).symm k) = wgtAt i k := funext fun a => Fin.ext (by
    match a with
    | ⟨0, _⟩ => exact (rhs_mm_0 _ _).trans hk
    | ⟨1, _⟩ => exact rhs_mm_1 _ _)
  rw [el, er]

/-- The bias strip spread over the rows, at an entry: the strip at that entry's column. -/
theorem biasRows_apply (x2 : FVec Ideal S1x512 .f32) (i : S1024x512.Idx) :
    broadcastTo S1024x512 x2 broadcasts_S1x512_S1024x512 i = x2 (biasAt i) :=
  broadcastTo_apply x2 broadcasts_S1x512_S1024x512 i (biasAt i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

/-- Entry `i` of the block the body stores: `Σ_k X(row i, k) · Y(k, col i) + β(0, col i)`. -/
theorem stored_apply (x0 : Vec Ideal S1024x4096 .bf16) (x1 : Vec Ideal S4096x512 .bf16) (x2 : Vec Ideal S1x512 .f32) (i : S1024x512.Idx) :
    k0_pay1 (F := Ideal) x0 x1 x2 i = (∑ k : Fin 4096, x0 (actAt i k) * x1 (wgtAt i k)) + x2 (biasAt i) := by
  unfold k0_pay1
  rw [shapeCast_self, shapeCast_self, shapeCast_self, ValueIdx.addf_apply, blockProduct_apply, biasRows_apply]

end Cert.KernelIdeal.BlockEntry

end
-- ==== Proof.RegionArray.lean ====
/-
  The array the pipelined region leaves behind, as one function of the three arrays it reads.

  The grid has 8 × 8 points. Point (a, b) reads rows 1024·a … 1024·a + 1023 of the activations (all 4096
  columns), columns 512·b … 512·b + 511 of the transposed weight (all 4096 rows) and the same columns of the
  bias strip, and writes the 1024 × 512 block at block position (a, b) of the output. An entry of a block is
  the product sum plus the bias (the block-entry lemma), and a block coordinate is always
  block index × block size + the coordinate inside the block; so what point (a, b) writes is the restriction
  to its block of the ONE whole-array function
        product X Y β (r, o) = Σ_k X(r, k) · Y(k, o) + β(0, o).
  The 64 blocks tile the 8192 × 4096 output: row r lies in block row r / 1024, column o in block column o / 512.
-/
import proofs.«136540_j52836687675856_1_alg».proof.Proof.Gen.KernelIdeal.Frame
import proofs.«136540_j52836687675856_1_alg».proof.Proof.BlockEntry
import Idealize.ShloMosaic.Lib.Pipeline.Value
import Idealize.ShloMosaic.Lib.Tactic

set_option maxRecDepth 16384

noncomputable section

namespace Cert.KernelIdeal.RegionArray

open Cert.KernelIdeal Cert.KernelIdeal.Gen Cert.KernelIdeal.BlockEntry
open Idealize.ShloMosaic Idealize.ShloMosaic.TcCoe Idealize.SL.Sem
open Idealize.ShloMosaic.Pipeline (Dat)

variable (m : (ℓ : Loc nD τ sig) → Buf (Elt Ideal) ℓ)

theorem zeroOffset : (![0, 0] : Fin 2 → Nat) = fun _ => 0 := funext fun a => by fin_cases a <;> rfl

/-- (row of `j`, `k`) in the activations. -/
abbrev rowAt (j : S8192x4096.Idx) (k : Fin 4096) : S8192x4096.Idx := fun a => match a with
  | ⟨0, _⟩ => ⟨(j 0).val, (j 0).isLt⟩
  | ⟨1, _⟩ => ⟨k.val, k.isLt⟩
/-- (`k`, column of `j`) in the transposed weight. -/
abbrev colAt (j : S8192x4096.Idx) (k : Fin 4096) : S4096x4096.Idx := fun a => match a with
  | ⟨0, _⟩ => ⟨k.val, k.isLt⟩
  | ⟨1, _⟩ => ⟨(j 1).val, (j 1).isLt⟩
/-- (0, column of `j`) in the bias strip. -/
abbrev stripAt (j : S8192x4096.Idx) : S1x4096.Idx := fun a => match a with
  | ⟨0, _⟩ => ⟨0, Nat.one_pos⟩
  | ⟨1, _⟩ => ⟨(j 1).val, (j 1).isLt⟩

/-- The whole output as a function of the three arrays: `Σ_k X(r, k) · Y(k, o) + β(0, o)`. -/
def product (X : S8192x4096.Idx → EReal) (Y : S4096x4096.Idx → EReal) (β : S1x4096.Idx → EReal) : S8192x4096.Idx → EReal :=
  fun j => (∑ k : Fin 4096, X (rowAt j k) * Y (colAt j k)) + β (stripAt j)

/-- The three arrays as the region finds them, at their literal types. -/
abbrev actArr (c : Dev nD) : S8192x4096.Idx → EReal := V m c main_v12
abbrev wgtArr (c : Dev nD) : S4096x4096.Idx → EReal := V m c main_v13
abbrev biasArr (c : Dev nD) : S1x4096.Idx → EReal := V m c main_v14

/-- The index maps over the grid: the activations follow the output's block row and sit at block column 0; the
    weight and the bias follow the output's block column and sit at block row 0. -/
theorem blockIndices : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Every block position of the output is some point's. -/
theorem blockOnto : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- What point `t` writes back is block `t` of `product` of the arrays as the region finds them. -/
theorem flushed_eq (c : Dev nD) (t : Fin cfg0.N) :
    (dats m 0 c).flushed 3 t = ((cfg0.win 3).blk t).view.read (Elt Ideal) (product (actArr m c) (wgtArr m c) (biasArr m c)) := by
  show (cfg0.win 3).cut (grid0.coords t) ((dats m 0 c).after 3 t) = _
  rw [after0_3]
  unfold out0_3
  rw [View.canon_unit_zero zeroOffset]
  simp only [View.ld_unit_zero (S := S1024x4096) zeroOffset, View.ld_unit_zero (S := S4096x512) zeroOffset, View.ld_unit_zero (S := S1x512) zeroOffset]
  obtain ⟨e0, e1, e2, e3, e4, e5, e6, e7⟩ := blockIndices t
  funext j
  show k0_pay1 (F := Ideal) (iblk m c 0 t) (iblk m c 1 t) (iblk m c 2 t) j = product (actArr m c) (wgtArr m c) (biasArr m c) (((cfg0.win 3).blk t).view.emb j)
  refine (stored_apply (iblk m c 0 t) (iblk m c 1 t) (iblk m c 2 t) j).trans ?_
  unfold product
  have hact : ∀ k : Fin 4096, ((cfg0.win 0).blk t).view.emb (actAt j k) = rowAt (((cfg0.win 3).blk t).view.emb j) k := fun k => by
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 4096 + 1 * k.val = k.val; omega
  have hwgt : ∀ k : Fin 4096, ((cfg0.win 1).blk t).view.emb (wgtAt j k) = colAt (((cfg0.win 3).blk t).view.emb j) k := fun k => by
    funext a; apply Fin.ext
    match a with
    | ⟨0, _⟩ => show win0_1.index t (0 : Fin 2) * 4096 + 1 * k.val = k.val; omega
    | ⟨1, _⟩ => show win0_1.index t (1 : Fin 2) * 512 + 1 * (j 1).val = win0_3.index t (1 : Fin 2) * 512 + 1 * (j 1).val; omega
  have hbias : ((cfg0.win 2).blk t).view.emb (biasAt j) = stripAt (((cfg0.win 3).blk t).view.emb j) := by
    funext a; apply Fin.ext
    match a with
    | ⟨0, _⟩ => show win0_2.index t (0 : Fin 2) * 1 + 1 * 0 = 0; omega
    | ⟨1, _⟩ => show win0_2.index t (1 : Fin 2) * 512 + 1 * (j 1).val = win0_3.index t (1 : Fin 2) * 512 + 1 * (j 1).val; omega
  show (∑ k : Fin 4096, actArr m c (((cfg0.win 0).blk t).view.emb (actAt j k)) * wgtArr m c (((cfg0.win 1).blk t).view.emb (wgtAt j k)))
      + biasArr m c (((cfg0.win 2).blk t).view.emb (biasAt j)) = _
  rw [hbias]
  exact congrArg (· + biasArr m c (stripAt (((cfg0.win 3).blk t).view.emb j))) (Finset.sum_congr rfl fun k _ => by rw [hact k, hwgt k])

/-- An index of the output is in point `t`'s block iff each coordinate is in the block's range on its axis. -/
theorem mem_blk (t : Fin cfg0.N) (i : S8192x4096.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v15).slice (win0_3.rect t)).set ↔ _
  rw [View.set_slice_whole, Rect.mem_set_unit]
  exact Iff.rfl

/-- The blocks tile the output: every index is in the block at (row / 1024, column / 512). -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := blockOnto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- The output array after the region: `product` of the three arrays the region read. -/
theorem regionArray (c : Dev nD) : (dats m 0 c).arrAt 3 cfg0.N = product (actArr m c) (wgtArr m c) (biasArr m c) :=
  (dats m 0 c).arrAt_eq_of_cover 3 (product (actArr m c) (wgtArr m c) (biasArr m c)) (fun t _ => flushed_eq m c t) covered

end Cert.KernelIdeal.RegionArray

end
-- ==== Proof.HostPrefix.lean ====
/-
  What the host lines before the region compute, as terms of the argument arrays.

  The low-rank correction: the shared 56 × 2048 factor A₀ is laid out twice side by side, first as it is and
  then with its rows rolled down by one (row 55 first, then rows 0 … 54), giving a 56 × 4096 factor; the shared
  2048 × 56 factor B₀ is stacked twice, first as it is and then with its columns rolled right by one, giving a
  4096 × 56 factor; the correction is  B_u · A_u + B_s · A_s  (4096 × 4096). (A roll by zero prints as a slice of
  everything joined with an empty slice.)

  The region then reads: the activations flattened from [4, 2048, 4096] to [8192, 4096]; the transpose of
  W + correction; the bias as a 1 × 4096 strip. The two conversions to the 16-bit format are the identity on
  extended reals.
-/
import proofs.«136540_j52836687675856_1_alg».proof.Proof.Gen.KernelIdeal.Frame
import Idealize.ShloMosaic.Lib.StableHlo.Run
import Idealize.ShloMosaic.PureOps.Ideal

set_option maxRecDepth 16384

noncomputable section

namespace Cert.KernelIdeal.HostPrefix

open Cert.KernelIdeal Cert.KernelIdeal.Gen
open Idealize.ShloMosaic Idealize.ShloMosaic.TcCoe Idealize.SL.Sem Idealize.ShloMosaic.StableHlo

section Terms
variable {F : FTy → Type} [FloatOps F]

/-- A₀ rolled by zero rows. -/
def sharedA_roll0 (a0 : FVec F S56x2048 .f32) : FVec F S56x2048 .f32 :=
  concatenate S56x2048 0 [⟨S56x2048, extractStridedSlice S56x2048 ![0, 0] a0 slices_S56x2048_S56x2048_0_0⟩, ⟨S0x2048, extractStridedSlice S0x2048 ![0, 0] a0 slices_S56x2048_S0x2048_0_0⟩] concatenates_S56x2048_S0x2048_S56x2048_d0
/-- A₀ rolled by one row: row 55, then rows 0 … 54. -/
def sharedA_roll1 (a0 : FVec F S56x2048 .f32) : FVec F S56x2048 .f32 :=
  concatenate S56x2048 0 [⟨S1x2048, extractStridedSlice S1x2048 ![55, 0] a0 slices_S56x2048_S1x2048_55_0⟩, ⟨S55x2048, extractStridedSlice S55x2048 ![0, 0] a0 slices_S56x2048_S55x2048_0_0⟩] concatenates_S1x2048_S55x2048_S56x2048_d0
/-- The 56 × 4096 shared factor: the two rolls side by side. -/
def sharedA (a0 : FVec F S56x2048 .f32) : FVec F S56x4096 .f32 :=
  concatenate S56x4096 1 [⟨S56x2048, sharedA_roll0 a0⟩, ⟨S56x2048, sharedA_roll1 a0⟩] concatenates_S56x2048_S56x2048_S56x4096_d1
/-- B₀ rolled by zero columns. -/
def sharedB_roll0 (b0 : FVec F S2048x56 .f32) : FVec F S2048x56 .f32 :=
  concatenate S2048x56 1 [⟨S2048x56, extractStridedSlice S2048x56 ![0, 0] b0 slices_S2048x56_S2048x56_0_0⟩, ⟨S2048x0, extractStridedSlice S2048x0 ![0, 0] b0 slices_S2048x56_S2048x0_0_0⟩] concatenates_S2048x56_S2048x0_S2048x56_d1
/-- B₀ rolled by one column: column 55, then columns 0 … 54. -/
def sharedB_roll1 (b0 : FVec F S2048x56 .f32) : FVec F S2048x56 .f32 :=
  concatenate S2048x56 1 [⟨S2048x1, extractStridedSlice S2048x1 ![0, 55] b0 slices_S2048x56_S2048x1_0_55⟩, ⟨S2048x55, extractStridedSlice S2048x55 ![0, 0] b0 slices_S2048x56_S2048x55_0_0⟩] concatenates_S2048x1_S2048x55_S2048x56_d1
/-- The 4096 × 56 shared factor: the two rolls stacked. -/
def sharedB (b0 : FVec F S2048x56 .f32) : FVec F S4096x56 .f32 :=
  concatenate S4096x56 0 [⟨S2048x56, sharedB_roll0 b0⟩, ⟨S2048x56, sharedB_roll1 b0⟩] concatenates_S2048x56_S2048x56_S4096x56_d0
/-- The low-rank correction `B_u · A_u + B_s · A_s`. -/
def correction (au : FVec F S8x4096 .f32) (bu : FVec F S4096x8 .f32) (a0 : FVec F S56x2048 .f32) (b0 : FVec F S2048x56 .f32) : FVec F S4096x4096 .f32 :=
  addf (Host.dotGeneral dot_S4096x8_S8x4096_S4096x4096_1_0_0_1_n_n none bu au)
    (Host.dotGeneral dot_S4096x56_S56x4096_S4096x4096_1_0_0_1_n_n none (sharedB b0) (sharedA a0))

end Terms

variable (m : (ℓ : Loc nD τ sig) → Buf (Elt Ideal) ℓ)

/-- The activations the region reads: the argument flattened to 8192 rows. -/
theorem activations_eq (c : Dev nD) :
    (V m c main_v12 : S8192x4096.Idx → EReal) = shapeCast S8192x4096 (m ((c : Thread nD τ).loc main_arg0)) shapeCasts_S4x2048x4096_S8192x4096 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

/-- The bias the region reads: the argument as a one-row strip. -/
theorem bias_eq (c : Dev nD) :
    (V m c main_v14 : S1x4096.Idx → EReal) = shapeCast S1x4096 (m ((c : Thread nD τ).loc main_arg2)) shapeCasts_S4096_S1x4096 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

set_option maxHeartbeats 2000000 in
/-- The weight the region reads: the transpose of `W + correction`. -/
theorem weight_eq (c : Dev nD) :
    (V m c main_v13 : S4096x4096.Idx → EReal) = transpose S4096x4096 [1, 0]
      (addf (m ((c : Thread nD τ).loc main_arg1)) (correction (F := Ideal) (m ((c : Thread nD τ).loc main_arg3)) (m ((c : Thread nD τ).loc main_arg4)) (m ((c : Thread nD τ).loc main_arg5)) (m ((c : Thread nD τ).loc main_arg6))))
      transposes_S4096x4096_S4096x4096_1_0 := by
  dsimp only [Gen.V, Gen.V0]
  simp only [Gen.hostOps0, Gen.hostOps0_1, Gen.hostOps0_2, Gen.hostOps0_3, Gen.hostOps0_4, Gen.hostOps0_5, List.flatten_cons, List.flatten_nil, List.append_nil, List.cons_append, List.nil_append]
  after_results
  rfl

end Cert.KernelIdeal.HostPrefix

end
-- ==== Proof.KernelResult.lean ====
/-
  The idealized kernel's result as one function of the arguments, and its run.

  After the region the one remaining host line un-flattens the 8192 × 4096 product to [4, 2048, 4096]: entry
  (b, s, o) of the result is entry (2048·b + s, o) of the product. Reading the three arrays the region consumed
  back to the arguments (flattened activations, transposed W + correction, bias strip) gives
        result(b, s, o) = Σ_k x(b, s, k) · (W(o, k) + corr(o, k)) + bias(o).
-/
import proofs.«136540_j52836687675856_1_alg».proof.Proof.RegionArray
import proofs.«136540_j52836687675856_1_alg».proof.Proof.HostPrefix
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.KernelIdeal.RegionArray Cert.KernelIdeal.HostPrefix
open Idealize.ShloMosaic Idealize.ShloMosaic.TcCoe Idealize.SL.Sem Idealize.ShloMosaic.StableHlo
open Idealize.ShloMosaic.Pipeline (Dat)

/-- Entry (b, s, o) of the result sits at (2048·b + s, o) of the flat product. -/
abbrev flat (i : S4x2048x4096.Idx) : S8192x4096.Idx := fun a => match a with
  | ⟨0, _⟩ => ⟨(i 0).val * 2048 + (i 1).val, by
      have h0 : (i 0).val < 4 := (i 0).isLt
      have h1 : (i 1).val < 2048 := (i 1).isLt
      show (i 0).val * 2048 + (i 1).val < 8192
      omega⟩
  | ⟨1, _⟩ => ⟨(i 2).val, (i 2).isLt⟩
/-- (b, s, k) in the activations. -/
abbrev xAt (i : S4x2048x4096.Idx) (k : Fin 4096) : S4x2048x4096.Idx := fun a => match a with
  | ⟨0, _⟩ => ⟨(i 0).val, (i 0).isLt⟩
  | ⟨1, _⟩ => ⟨(i 1).val, (i 1).isLt⟩
  | ⟨2, _⟩ => ⟨k.val, k.isLt⟩
/-- (o, k) in a 4096 × 4096 weight. -/
abbrev wAt (i : S4x2048x4096.Idx) (k : Fin 4096) : S4096x4096.Idx := fun a => match a with
  | ⟨0, _⟩ => ⟨(i 2).val, (i 2).isLt⟩
  | ⟨1, _⟩ => ⟨k.val, k.isLt⟩
/-- (o) in the bias. -/
abbrev bAt (i : S4x2048x4096.Idx) : S4096.Idx := fun a => match a with
  | ⟨0, _⟩ => ⟨(i 2).val, (i 2).isLt⟩

/-- The kernel's function: `Σ_k x(b, s, k) · (W(o, k) + δ(o, k)) + bias(o)`. -/
def folded (x : S4x2048x4096.Idx → EReal) (W : S4096x4096.Idx → EReal) (b : S4096.Idx → EReal) (δ : S4096x4096.Idx → EReal) :
    S4x2048x4096.Idx → EReal :=
  fun i => (∑ k : Fin 4096, x (xAt i k) * (W (wAt i k) + δ (wAt i k))) + b (bAt i)

/-- The un-flattened product of the flattened activations, the transposed `W + δ` and the bias strip is `folded`. -/
theorem unflatten_product (x : S4x2048x4096.Idx → EReal) (W : S4096x4096.Idx → EReal) (b : S4096.Idx → EReal) (δ : S4096x4096.Idx → EReal) :
    shapeCast S4x2048x4096
      (product (shapeCast S8192x4096 x shapeCasts_S4x2048x4096_S8192x4096)
        (transpose S4096x4096 [1, 0] (addf (F := Ideal) (φ := .f32) W δ) transposes_S4096x4096_S4096x4096_1_0)
        (shapeCast S1x4096 b shapeCasts_S4096_S1x4096))
      shapeCasts_S8192x4096_S4x2048x4096 = folded x W b δ := by
  funext i
  rw [shapeCast_apply _ shapeCasts_S8192x4096_S4x2048x4096 i (flat i) (by
    rw [Shape.rowMajor_val_two, Shape.rowMajor_val_three]
    show ((i 0).val * 2048 + (i 1).val) * 4096 + (i 2).val = ((i 0).val * 2048 + (i 1).val) * 4096 + (i 2).val
    rfl)]
  unfold product folded
  have hx : ∀ k : Fin 4096, shapeCast S8192x4096 x shapeCasts_S4x2048x4096_S8192x4096 (rowAt (flat i) k) = x (xAt i k) := fun k =>
    shapeCast_apply x shapeCasts_S4x2048x4096_S8192x4096 (rowAt (flat i) k) (xAt i k) (by
      rw [Shape.rowMajor_val_three, Shape.rowMajor_val_two]
      show ((i 0).val * 2048 + (i 1).val) * 4096 + k.val = ((i 0).val * 2048 + (i 1).val) * 4096 + k.val
      rfl)
  have hw : ∀ k : Fin 4096, transpose S4096x4096 [1, 0] (addf (F := Ideal) (φ := .f32) W δ) transposes_S4096x4096_S4096x4096_1_0 (colAt (flat i) k)
      = W (wAt i k) + δ (wAt i k) := fun k =>
    transpose_apply [1, 0] (addf (F := Ideal) (φ := .f32) W δ) transposes_S4096x4096_S4096x4096_1_0 (colAt (flat i) k) (wAt i k)
      (fun b => match b with | ⟨0, _⟩ => rfl | ⟨1, _⟩ => rfl)
  have hb : shapeCast S1x4096 b shapeCasts_S4096_S1x4096 (stripAt (flat i)) = b (bAt i) :=
    shapeCast_apply b shapeCasts_S4096_S1x4096 (stripAt (flat i)) (bAt i) (by
      rw [Shape.rowMajor_val_one, Shape.rowMajor_val_two]
      show (i 2).val = 0 * 4096 + (i 2).val
      omega)
  rw [hb]
  exact congrArg (· + b (bAt i)) (Finset.sum_congr rfl fun k _ => by rw [hx k, hw k])

variable (m : (ℓ : Loc nD τ sig) → Buf (Elt Ideal) ℓ) (ρ : Dev nD → PrngReg)

/-- The kernel's function of the launch contents. -/
abbrev resultOf (c : Dev nD) : S4x2048x4096.Idx → EReal :=
  folded (m ((c : Thread nD τ).loc main_arg0)) (m ((c : Thread nD τ).loc main_arg1)) (m ((c : Thread nD τ).loc main_arg2))
    (correction (F := Ideal) (m ((c : Thread nD τ).loc main_arg3)) (m ((c : Thread nD τ).loc main_arg4)) (m ((c : Thread nD τ).loc main_arg5)) (m ((c : Thread nD τ).loc main_arg6)))

/-- What the line after the region leaves in the result buffer. -/
theorem tail_result (c : Dev nD) :
    (Pipeline.afterTail₀ cfgs (dats m) 0 (V0 m) [hostOps1] c main_v16 : S4x2048x4096.Idx → EReal) = resultOf m c := by
  unfold Pipeline.afterTail₀
  show StableHlo.after hostOps1 _ (Proc.devRef .tc main_v16) = _
  after_results
  rw [(Pipeline.withArrays_arr spec0 launch0.win.arr_inj c _ _ 3).trans (regionArray m c),
    show actArr m c = _ from activations_eq m c, show wgtArr m c = _ from weight_eq m c, show biasArr m c = _ from bias_eq m c]
  exact unflatten_product _ _ _ _

/-- The idealized kernel's run: it terminates with the result buffer at `resultOf` and the arguments unchanged. -/
theorem run : θ_run defs (onTc (τ := τ) (main (F := Ideal))) ⟨m, fun _ => 0, ρ⟩ (fun r => ∀ c : Dev nD,
      r.2.mem ((c.tc : Thread nD τ).loc main_v16) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_v16 (Pipeline.mem_restRefs_of main_v16 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Result

end
-- ==== Proof.ReferenceEntry.lean ====
/-
  One entry of the reference's result.

  The reference multiplies the activations by the base weight (contracting the last axis of both), adds the bias
  along the last axis, multiplies the activations by the low-rank correction the same way, and adds the two:
      ref(b, s, o) = (Σ_k x(b, s, k) · W(o, k) + bias(o)) + Σ_k x(b, s, k) · corr(o, k).
  This is the generated stage-by-stage reading of the reference, chained.
-/
import proofs.«136540_j52836687675856_1_alg».proof.Proof.Gen.ReferenceIdeal.Read

noncomputable section

namespace Cert.ReferenceIdeal.Entry

open Cert.ReferenceIdeal Cert.ReferenceIdeal.Read Idealize.ShloMosaic

/-- Entry `i` of the reference's result, with the correction left as the reference's own stage. -/
theorem result_apply (x0 : S4x2048x4096.Idx → EReal) (x1 : S4096x4096.Idx → EReal) (x2 : S4096.Idx → EReal)
    (x3 : S8x4096.Idx → EReal) (x4 : S4096x8.Idx → EReal) (x5 : S56x2048.Idx → EReal) (x6 : S2048x56.Idx → EReal) (i : S4x2048x4096.Idx) :
    val_main_v14 (F := Ideal) x0 x1 x2 x3 x4 x5 x6 i
      = ((∑ k : Fin 4096, x0 (lidx_main_v9 i k) * x1 (ridx_main_v9 i k)) + x2 (idx_main_v10 (idx_main_v11 i)))
        + ∑ k : Fin 4096, x0 (lidx_main_v13 i k) * val_main_v8 (F := Ideal) x3 x4 x5 x6 (ridx_main_v13 i k) := by
  rw [val_main_v14_apply, val_main_v12_apply, val_main_v9_apply, val_main_v11_apply, val_main_v10_apply, val_main_v13_apply]
  rfl

end Cert.ReferenceIdeal.Entry

end
-- ==== Proof.FiniteInputs.lean ====
/-
  What the precondition says of the activations and of the base weight.

  The precondition is the conjunction, over the seven arguments, of "every entry has absolute value below +∞".
  At the ideal instance an entry is an extended real, |x| is max x (−x), and the literal 0x7F800000 is +∞; so an
  entry that passes the test is neither −∞ nor +∞. Only the first two conjuncts (activations, base weight) are
  needed by the algebra.
-/
import proofs.«136540_j52836687675856_1_alg».proof.Pre_finite_inputs
import Idealize.ShloMosaic.Lib.ReduceAll
import Idealize.ShloMosaic.Lib.ValueIdx
import Idealize.ShloMosaic.PureOps.Ideal

noncomputable section

namespace Cert.Pre_finite_inputs.Decode

open Cert.Pre_finite_inputs Idealize.ShloMosaic

variable [Facts]

instance : Subsingleton S_.Idx := ⟨fun a b => funext fun d => d.elim0⟩

/-- The literal the test compares against is +∞. -/
theorem inf_word : Ideal.ofBits .f32 0x7F800000#32 = (⊤ : EReal) := by simp [Ideal.ofBits, Ideal.ieee]

/-- An extended real whose absolute value is below +∞ is neither infinity. -/
theorem finite_of_abs_lt_top (x : EReal) (h : Ideal.cmp .olt (max x (-x)) (Ideal.ofBits .f32 0x7F800000#32) = 1#1) :
    x ≠ ⊥ ∧ x ≠ ⊤ := by
  rw [inf_word] at h
  have hb : ∀ b : Bool, BitVec.ofBool b = 1#1 → b = true := fun b => by cases b <;> decide
  have hlt : max x (-x) < ⊤ := by
    unfold Ideal.cmp at h
    exact of_decide_eq_true (hb _ h)
  constructor
  · rintro rfl
    simp at hlt
  · rintro rfl
    simp at hlt

/-- One `jnp.all(|a| < inf)` conjunct that came out true: every entry of `a` is finite. -/
theorem all_finite {s : Shape} {axes : List (Fin s.rank)} (a : FVec Ideal s .f32) (hb : S_.BroadcastsInDim s (![] : Fin 0 → Fin s.rank))
    (hr : s.ReducesTo axes S_) (hu : 0 < S_.numel)
    (e : Host.reduce IntOp.andi (cmpf .olt (Host.absf a) (broadcastInDim s ![] hb (constant S_ .f32 0x7F800000#32))) (constantI S_ 1 1#1) hr hu ValueIdx.ix0 = 1#1)
    (i : s.Idx) : a i ≠ ⊥ ∧ a i ≠ ⊤ :=
  finite_of_abs_lt_top (a i) (Host.reduce_andi_all _ _ hr hu ValueIdx.ix0 e i)

/-- Under the precondition the activations and the base weight hold finite numbers only. -/
theorem activations_and_weight_finite (a0 : FVec Ideal S4x2048x4096 .f32) (a1 : FVec Ideal S4096x4096 .f32) (a2 : FVec Ideal S4096 .f32)
    (a3 : FVec Ideal S8x4096 .f32) (a4 : FVec Ideal S4096x8 .f32) (a5 : FVec Ideal S56x2048 .f32) (a6 : FVec Ideal S2048x56 .f32)
    (h : fn (F := Ideal) a0 a1 a2 a3 a4 a5 a6 = fun _ => 1#1) :
    (∀ i, a0 i ≠ ⊥ ∧ a0 i ≠ ⊤) ∧ (∀ i, a1 i ≠ ⊥ ∧ a1 i ≠ ⊤) := by
  have h0 := congrFun h ValueIdx.ix0
  dsimp only [fn, fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, -⟩ := IntOp.andi_eq_one.1 h3
  obtain ⟨h5, -⟩ := IntOp.andi_eq_one.1 h4
  obtain ⟨hx, hw⟩ := IntOp.andi_eq_one.1 h5
  exact ⟨all_finite a0 _ _ _ hx, all_finite a1 _ _ _ hw⟩

end Cert.Pre_finite_inputs.Decode

end
-- ==== Proof.lean ====
/-
  The certificate: a linear layer whose weight carries a low-rank correction, computed two ways.

  The kernel folds the correction into the weight first and multiplies once,
        out(b, s, o) = Σ_k x(b, s, k) · (W(o, k) + corr(o, k)) + bias(o),
  with the one large product done blockwise by a pipelined region (8 × 8 blocks of 1024 × 512). The reference
  multiplies by the base weight, adds the bias, multiplies by the correction and adds:
        ref(b, s, o) = (Σ_k x(b, s, k) · W(o, k) + bias(o)) + Σ_k x(b, s, k) · corr(o, k).
  Both programs build the correction  B_u · A_u + B_s · A_s  from the same host operations on the same arguments,
  so it is one term on both sides and is never opened. On the extended reals the two results agree as soon as the
  activations x and the base weight W are finite (x · (w + d) = x · w + x · d for real x, w and any d; the rest is
  commutativity and associativity of +), and the precondition says every input is finite.

  The three frames: the two kernel programs' frames are the generated ones; the reference has no kernel, and its
  frame is its generated run with the result dropped. The idealization rewrote nothing, so its conjunct is trivial.
-/
import proofs.«136540_j52836687675856_1_alg».proof.Defs
import proofs.«136540_j52836687675856_1_alg».proof.Proof.Gen.Kernel
import proofs.«136540_j52836687675856_1_alg».proof.Proof.Gen.Kernel.Skeleton
import proofs.«136540_j52836687675856_1_alg».proof.Proof.Gen.Kernel.Launch
import proofs.«136540_j52836687675856_1_alg».proof.Proof.Gen.Kernel.Points
import proofs.«136540_j52836687675856_1_alg».proof.Proof.Gen.Kernel.Frame
import proofs.«136540_j52836687675856_1_alg».proof.Proof.Gen.KernelIdeal
import proofs.«136540_j52836687675856_1_alg».proof.Proof.Gen.KernelIdeal.Skeleton
import proofs.«136540_j52836687675856_1_alg».proof.Proof.Gen.KernelIdeal.Launch
import proofs.«136540_j52836687675856_1_alg».proof.Proof.Gen.KernelIdeal.Points
import proofs.«136540_j52836687675856_1_alg».proof.Proof.Gen.KernelIdeal.Frame
import proofs.«136540_j52836687675856_1_alg».proof.Proof.Gen.ReferenceIdeal
import proofs.«136540_j52836687675856_1_alg».proof.Proof.Gen.Pre_finite_inputs
import proofs.«136540_j52836687675856_1_alg».proof.Proof.Gen.ReferenceIdeal.Run
import proofs.«136540_j52836687675856_1_alg».proof.Proof.Gen.ReferenceIdeal.Read
import proofs.«136540_j52836687675856_1_alg».proof.Proof.SplitLaw
import proofs.«136540_j52836687675856_1_alg».proof.Proof.KernelResult
import proofs.«136540_j52836687675856_1_alg».proof.Proof.ReferenceEntry
import proofs.«136540_j52836687675856_1_alg».proof.Proof.FiniteInputs
import Idealize.ShloMosaic.Adequacy
import Idealize.ShloMosaic.Init

noncomputable section

namespace Cert.Proof

open Idealize.ShloMosaic Idealize.ShloMosaic.TcCoe Idealize.SL.Sem

/-- The correction the kernel's host lines compute is the reference's own stage: the same operations on the same
    arguments, in two namespaces. -/
theorem correction_same (x3 : Cert.ReferenceIdeal.S8x4096.Idx → EReal) (x4 : Cert.ReferenceIdeal.S4096x8.Idx → EReal)
    (x5 : Cert.ReferenceIdeal.S56x2048.Idx → EReal) (x6 : Cert.ReferenceIdeal.S2048x56.Idx → EReal) :
    Cert.ReferenceIdeal.Read.val_main_v8 (F := Ideal) x3 x4 x5 x6 = Cert.KernelIdeal.HostPrefix.correction (F := Ideal) x3 x4 x5 x6 := rfl

/-- Index by index the reference's result is the kernel's function, when the activations and the base weight are finite. -/
theorem reference_eq_folded (x0 : Cert.ReferenceIdeal.S4x2048x4096.Idx → EReal) (x1 : Cert.ReferenceIdeal.S4096x4096.Idx → EReal)
    (x2 : Cert.ReferenceIdeal.S4096.Idx → EReal) (x3 : Cert.ReferenceIdeal.S8x4096.Idx → EReal) (x4 : Cert.ReferenceIdeal.S4096x8.Idx → EReal)
    (x5 : Cert.ReferenceIdeal.S56x2048.Idx → EReal) (x6 : Cert.ReferenceIdeal.S2048x56.Idx → EReal)
    (hx : ∀ i, x0 i ≠ ⊥ ∧ x0 i ≠ ⊤) (hw : ∀ i, x1 i ≠ ⊥ ∧ x1 i ≠ ⊤) :
    Cert.ReferenceIdeal.Read.val_main_v14 (F := Ideal) x0 x1 x2 x3 x4 x5 x6
      = Cert.KernelIdeal.Result.folded x0 x1 x2 (Cert.KernelIdeal.HostPrefix.correction (F := Ideal) x3 x4 x5 x6) := by
  funext i
  rw [Cert.ReferenceIdeal.Entry.result_apply, correction_same]
  exact (Cert.LoraFold.sum_fold_eq_split
    (fun k : Fin 4096 => x0 (Cert.KernelIdeal.Result.xAt i k)) (fun k => x1 (Cert.KernelIdeal.Result.wAt i k))
    (fun k => Cert.KernelIdeal.HostPrefix.correction (F := Ideal) x3 x4 x5 x6 (Cert.KernelIdeal.Result.wAt i k))
    (x2 (Cert.KernelIdeal.Result.bAt i)) (fun k => hx _) (fun k => hw _)).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two idealized programs, from memories agreeing on the arguments, end with equal results. -/
theorem algebraic : Cert.algebraic_KernelIdeal_ReferenceIdeal := by
  intro m ρ m' ρ' hpre hagree
  refine ⟨fun c => Cert.KernelIdeal.Result.resultOf m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Pre_finite_inputs.Decode.activations_and_weight_finite _ _ _ _ _ _ _ (hpre c)
  rw [Cert.ReferenceIdeal.Read.val_main_v14_eq, (hagree c).1, (hagree c).2.1, (hagree c).2.2.1, (hagree c).2.2.2.1,
    (hagree c).2.2.2.2.1, (hagree c).2.2.2.2.2.1, (hagree c).2.2.2.2.2.2]
  exact reference_eq_folded _ _ _ _ _ _ _ hx hw

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
